-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S8 : S_.BroadcastsInDim S8 (![] : Fin 0 → Fin S8.rank)
  reducesTo_S8_S_d0 : S8.ReducesTo [0] S_
  bcast_S_S3072x8 : S_.BroadcastsInDim S3072x8 (![] : Fin 0 → Fin S3072x8.rank)
  reducesTo_S3072x8_S_d0_1 : S3072x8.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x3072 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x2048x768 .f32) (main_arg1 : FVec F S8 .f32) (main_arg2 : FVec F S3072x8 .f32) (main_arg3 : FVec F S3072 .f32) (main_arg4 : FVec F S768x3072 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x2048x8 : Shape := ⟨3, ![8, 2048, 8]⟩
abbrev S16384x8 : Shape := ⟨2, ![16384, 8]⟩
abbrev S8x3072 : Shape := ⟨2, ![8, 3072]⟩
abbrev S3072x768 : Shape := ⟨2, ![3072, 768]⟩
abbrev S16384x768 : Shape := ⟨2, ![16384, 768]⟩
abbrev S1024x8 : Shape := ⟨2, ![1024, 8]⟩
abbrev S1024x768 : Shape := ⟨2, ![1024, 768]⟩
abbrev S1x8 : Shape := ⟨2, ![1, 8]⟩
abbrev S1024x3072 : Shape := ⟨2, ![1024, 3072]⟩
abbrev S1x3072 : Shape := ⟨2, ![1, 3072]⟩
abbrev S1x768 : Shape := ⟨2, ![1, 768]⟩

abbrev nBuf : Space → Nat
  | .hbm => 14
  | .vmem => 9
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x2048x8, .f32⟩
  | .hbm, ⟨7, _⟩ => ⟨S16384x8, .f32⟩
  | .hbm, ⟨8, _⟩ => ⟨S8x3072, .f32⟩
  | .hbm, ⟨9, _⟩ => ⟨S8x3072, .bf16⟩
  | .hbm, ⟨10, _⟩ => ⟨S3072x768, .f32⟩
  | .hbm, ⟨11, _⟩ => ⟨S3072x768, .bf16⟩
  | .hbm, ⟨12, _⟩ => ⟨S16384x768, .f32⟩
  | .hbm, ⟨13, _⟩ => ⟨S8x2048x768, .f32⟩
  | .local _ .vmem, ⟨0, _⟩ => ⟨S1024x8, .f32⟩
  | .local _ .vmem, ⟨1, _⟩ => ⟨S1024x8, .f32⟩
  | .local _ .vmem, ⟨2, _⟩ => ⟨S8, .f32⟩
  | .local _ .vmem, ⟨3, _⟩ => ⟨S8x3072, .bf16⟩
  | .local _ .vmem, ⟨4, _⟩ => ⟨S3072, .f32⟩
  | .local _ .vmem, ⟨5, _⟩ => ⟨S3072x768, .bf16⟩
  | .local _ .vmem, ⟨6, _⟩ => ⟨S768, .f32⟩
  | .local _ .vmem, ⟨7, _⟩ => ⟨S1024x768, .f32⟩
  | .local _ .vmem, ⟨8, _⟩ => ⟨S1024x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8x2048x768_S8x2048x8_0_0_0 : S8x2048x768.Slices ![0, 0, 0] S8x2048x8
  shapeCasts_S8x2048x8_S16384x8 : S8x2048x8.ShapeCasts S16384x8
  transposes_S3072x8_S8x3072_1_0 : S3072x8.Transposes [1, 0] S8x3072
  bitsLt_bf16_f32 : FTy.bits .bf16 < FTy.bits .f32
  transposes_S768x3072_S3072x768_1_0 : S768x3072.Transposes [1, 0] S3072x768
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S8x3072_S8x3072_0_0 : ∀ a, (![0, 0] : Fin 2 → Nat) a + S8x3072.size a ≤ S8x3072.size a
  h_S8x3072 : 0 < S8x3072.numel
  shapeCasts_S8x3072_S8x3072 : S8x3072.ShapeCasts S8x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S1024x3072 : S1x3072.Broadcasts S1024x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S16384x768_S8x2048x768 : S16384x768.ShapeCasts S8x2048x768
  dot_S1024x8_S8x3072_S1024x3072_1_0_0_1_n_n_wf : DotDims.WF S1024x8 S8x3072 S1024x3072 [1] [0] [0] [1] [] []
  dot_S1024x3072_S3072x768_S1024x768_1_0_0_1_n_n_wf : DotDims.WF S1024x3072 S3072x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S16384x8.size a
  hwx0_0 : ∀ i : grid0.Coords, EltTy.bits .f32 = 32 ∨ (Rect.block (s := S16384x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x3072.size a ≤ S8x3072.size a
  hwx0_2 : ∀ i : grid0.Coords, EltTy.bits .bf16 = 32 ∨ (Rect.block (s := S8x3072) S8x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072.size a ≤ S3072.size a
  hwx0_3 : ∀ i : grid0.Coords, EltTy.bits .f32 = 32 ∨ (Rect.block (s := S3072) S3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x768.size a ≤ S3072x768.size a
  hwx0_4 : ∀ i : grid0.Coords, EltTy.bits .bf16 = 32 ∨ (Rect.block (s := S3072x768) S3072x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x768.size a ≤ S16384x768.size a
  hwx0_6 : ∀ i : grid0.Coords, EltTy.bits .f32 = 32 ∨ (Rect.block (s := S16384x768) S1024x768.size (cc0_transform_6 i) (hinb0_6 i)).WholeWords (EltTy.packing .f32)

variable [Facts₀]

def dot_S1024x8_S8x3072_S1024x3072_1_0_0_1_n_n : DotDims S1024x8 S8x3072 S1024x3072 where
  lhsContracting := [1]
  rhsContracting := [0]
  lhsNonContracting := [0]
  rhsNonContracting := [1]
  lhsBatch := []
  rhsBatch := []
  wf := dot_S1024x8_S8x3072_S1024x3072_1_0_0_1_n_n_wf
def dot_S1024x3072_S3072x768_S1024x768_1_0_0_1_n_n : DotDims S1024x3072 S3072x768 S1024x768 where
  lhsContracting := [1]
  rhsContracting := [0]
  lhsNonContracting := [0]
  rhsNonContracting := [1]
  lhsBatch := []
  rhsBatch := []
  wf := dot_S1024x3072_S3072x768_S1024x768_1_0_0_1_n_n_wf

abbrev win0_0 : Pipeline.Window sig grid0 :=
  Pipeline.Window.ofSpec (Memref.whole main_v1) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S3072x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x2048x8 : Shape := ⟨3, ![8, 2048, 8]⟩
abbrev S1x1x8 : Shape := ⟨3, ![1, 1, 8]⟩
abbrev S8x2048x3072 : Shape := ⟨3, ![8, 2048, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x2048x8, .f32⟩
  | .hbm, ⟨7, _⟩ => ⟨S8x2048x8, .f32⟩
  | .hbm, ⟨8, _⟩ => ⟨S8, .f32⟩
  | .hbm, ⟨9, _⟩ => ⟨S1x1x8, .f32⟩
  | .hbm, ⟨10, _⟩ => ⟨S8x2048x8, .f32⟩
  | .hbm, ⟨11, _⟩ => ⟨S8x2048x8, .f32⟩
  | .hbm, ⟨12, _⟩ => ⟨S8x2048x3072, .f32⟩
  | .hbm, ⟨13, _⟩ => ⟨S1x1x3072, .f32⟩
  | .hbm, ⟨14, _⟩ => ⟨S8x2048x3072, .f32⟩
  | .hbm, ⟨15, _⟩ => ⟨S8x2048x3072, .f32⟩
  | .hbm, ⟨16, _⟩ => ⟨S_, .f32⟩
  | .hbm, ⟨17, _⟩ => ⟨S8x2048x3072, .f32⟩
  | .hbm, ⟨18, _⟩ => ⟨S8x2048x3072, .f32⟩
  | .hbm, ⟨19, _⟩ => ⟨S8x2048x768, .f32⟩
  | .hbm, ⟨20, _⟩ => ⟨S1x1x768, .f32⟩
  | .hbm, ⟨21, _⟩ => ⟨S8x2048x768, .f32⟩
  | .hbm, ⟨22, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x2048x768_S8x2048x8_0_0_0 : S8x2048x768.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x3072 : S_.BroadcastsInDim S8x2048x3072 (![] : Fin 0 → Fin S8x2048x3072.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  dot_S8x2048x8_S3072x8_S8x2048x3072_2_1_01_0_n_n_wf : DotDims.WF S8x2048x8 S3072x8 S8x2048x3072 [2] [1] [0, 1] [0] [] []
  dot_S8x2048x3072_S768x3072_S8x2048x768_2_1_01_0_n_n_wf : DotDims.WF S8x2048x3072 S768x3072 S8x2048x768 [2] [1] [0, 1] [0] [] []

variable [Facts₀]

def dot_S8x2048x8_S3072x8_S8x2048x3072_2_1_01_0_n_n : DotDims S8x2048x8 S3072x8 S8x2048x3072 where
  lhsContracting := [2]
  rhsContracting := [1]
  lhsNonContracting := [0, 1]
  rhsNonContracting := [0]
  lhsBatch := []
  rhsBatch := []
  wf := dot_S8x2048x8_S3072x8_S8x2048x3072_2_1_01_0_n_n_wf
def dot_S8x2048x3072_S768x3072_S8x2048x768_2_1_01_0_n_n : DotDims S8x2048x3072 S768x3072 S8x2048x768 where
  lhsContracting := [2]
  rhsContracting := [1]
  lhsNonContracting := [0, 1]
  rhsNonContracting := [0]
  lhsBatch := []
  rhsBatch := []
  wf := dot_S8x2048x3072_S768x3072_S8x2048x768_2_1_01_0_n_n_wf

class Facts : Prop extends Facts₀ where

variable [Facts]
-- ==== Proof.FfnSpec.lean ====
/-
  The layer both programs compute, as one function of the argument arrays.

  For a token (b, s) only the first eight channels of `x` are read.  With
    a_q   = cos x[b,s,q] · cos θ[q]                         (q < 8)
    h_f   = max (Σ_q a_q · w1[f,q] + b1[f]) 0               (f < 3072)
    out_e = Σ_f h_f · w2[e,f] + b2[e]                       (e < 768)
  the result at (b, s, e) is out_e.  Everything is read on the extended reals, where a change of
  float format is the identity, so the two matrix products are plain finite sums and the
  rectifier is `max · 0`.

  The token's value is stated over READERS of the six arrays (functions of coordinates) rather
  than over the arrays themselves: the kernel reads transposed weight copies and a flattened
  token axis, the reference reads the arguments as given, and both instantiate the same `token`.
-/
import Idealize.ShloMosaic.PureOps.Ideal.Laws
import Idealize.ShloMosaic.Lib.ValueIdx

noncomputable section

namespace Cert.Ffn

open Idealize.ShloMosaic Idealize.ShloMosaic.ValueIdx

/-- Hidden unit `f` of one token: the rectified affine image of the eight products
    `cos x_q · cos θ_q`. -/
def hidden (xr θr : Fin 8 → EReal) (w1r : Fin 3072 → Fin 8 → EReal) (b1r : Fin 3072 → EReal) (f : Fin 3072) : EReal :=
  max ((∑ q : Fin 8, (Ideal.cos (xr q) * Ideal.cos (θr q)) * w1r f q) + b1r f) (Ideal.ofBits .f32 0x00000000#32)

/-- Output channel `e` of one token: the affine image of its 3072 hidden units. -/
def token (xr θr : Fin 8 → EReal) (w1r : Fin 3072 → Fin 8 → EReal) (b1r : Fin 3072 → EReal)
    (w2r : Fin 768 → Fin 3072 → EReal) (b2r : Fin 768 → EReal) (e : Fin 768) : EReal :=
  (∑ f : Fin 3072, hidden xr θr w1r b1r f * w2r e f) + b2r e

/-- Channel `q < 8` as a channel of the 768-wide input. -/
abbrev chan (q : Fin 8) : Fin 768 := ⟨q.val, by have := q.isLt; omega⟩

/-- The whole layer on `[8, 2048, 768]`: token (b, s) reads `x[b, s, 0..8)`, the weights as given. -/
def ffn (x : FVec Ideal ⟨3, ![8, 2048, 768]⟩ .f32) (θ : FVec Ideal ⟨1, ![8]⟩ .f32) (w1 : FVec Ideal ⟨2, ![3072, 8]⟩ .f32)
    (b1 : FVec Ideal ⟨1, ![3072]⟩ .f32) (w2 : FVec Ideal ⟨2, ![768, 3072]⟩ .f32) (b2 : FVec Ideal ⟨1, ![768]⟩ .f32) :
    FVec Ideal ⟨3, ![8, 2048, 768]⟩ .f32 :=
  fun i => token (fun q => x (ix3 (i 0) (i 1) (chan q))) (fun q => θ (ix1 q)) (fun f q => w1 (ix2 f q)) (fun f => b1 (ix1 f))
    (fun e f => w2 (ix2 e f)) (fun e => b2 (ix1 e)) (i 2)

/-- The same layer on the flattened token axis `[16384, ·]` with the weights stored transposed, which is
    what the kernel is handed: row `r` of `xin` is a token's eight channels. -/
def ffnFlat (xin : FVec Ideal ⟨2, ![16384, 8]⟩ .f32) (θ : FVec Ideal ⟨1, ![8]⟩ .f32) (w1t : FVec Ideal ⟨2, ![8, 3072]⟩ .bf16)
    (b1 : FVec Ideal ⟨1, ![3072]⟩ .f32) (w2t : FVec Ideal ⟨2, ![3072, 768]⟩ .bf16) (b2 : FVec Ideal ⟨1, ![768]⟩ .f32) :
    FVec Ideal ⟨2, ![16384, 768]⟩ .f32 :=
  fun j => token (fun q => xin (ix2 (j 0) q)) (fun q => θ (ix1 q)) (fun f q => w1t (ix2 q f)) (fun f => b1 (ix1 f))
    (fun e f => w2t (ix2 f e)) (fun e => b2 (ix1 e)) (j 1)

end Cert.Ffn

end
-- ==== Proof.KernelPayload.lean ====
/-
  The kernel body's one stored value, read at an entry.

  The body loads a tile of 1024 tokens (eight channels each), the angle vector, both weight
  matrices (stored transposed, contraction axis leading for the first product and trailing for the
  second) and both biases, and stores
      (max ((cos X · cos θ) W1ᵗ + b1) 0) W2ᵗ + b2 .
  On the extended reals each matrix product into a zero accumulator is the finite sum over its
  one contracted axis, format changes are the identity, a bias row is the same for every token of
  the tile, so entry (p, e) of the stored tile is the specification's `token` at the tile's row p.
-/
import proofs.«180134_j65481071398675_1_alg».proof.Proof.Gen.KernelIdeal.Skeleton
import proofs.«180134_j65481071398675_1_alg».proof.Proof.FfnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The first product, [1024, 8] × [8, 3072]: which operand entries an output entry reads

Output entry (p, f) at contraction index k reads the left operand at (p, k) and the right at (k, f):
the left operand's axis 0 and the right's axis 1 are carried to the output, the other two contracted. -/

theorem lhs_mm1_0 (i : S1024x3072.Idx) (q : dot_S1024x8_S8x3072_S1024x3072_1_0_0_1_n_n.contr.Idx) :
    (dot_S1024x8_S8x3072_S1024x3072_1_0_0_1_n_n.lhsIdx i q 0).val = (i 0).val := by
  unfold DotDims.lhsIdx
  rw [dif_neg (show ¬(0 : Fin S1024x8.rank) ∈ dot_S1024x8_S8x3072_S1024x3072_1_0_0_1_n_n.lhsBatch by decide), dif_pos (show (0 : Fin S1024x8.rank) ∈ dot_S1024x8_S8x3072_S1024x3072_1_0_0_1_n_n.lhsNonContracting by decide)]
  rfl
theorem lhs_mm1_1 (i : S1024x3072.Idx) (q : dot_S1024x8_S8x3072_S1024x3072_1_0_0_1_n_n.contr.Idx) :
    (dot_S1024x8_S8x3072_S1024x3072_1_0_0_1_n_n.lhsIdx i q 1).val = (q ⟨0, by decide⟩).val :=
  dot_S1024x8_S8x3072_S1024x3072_1_0_0_1_n_n.lhsIdx_val_of_single rfl i q
theorem rhs_mm1_0 (i : S1024x3072.Idx) (q : dot_S1024x8_S8x3072_S1024x3072_1_0_0_1_n_n.contr.Idx) :
    (dot_S1024x8_S8x3072_S1024x3072_1_0_0_1_n_n.rhsIdx i q 0).val = (q ⟨0, by decide⟩).val :=
  dot_S1024x8_S8x3072_S1024x3072_1_0_0_1_n_n.rhsIdx_val_of_single rfl i q
theorem rhs_mm1_1 (i : S1024x3072.Idx) (q : dot_S1024x8_S8x3072_S1024x3072_1_0_0_1_n_n.contr.Idx) :
    (dot_S1024x8_S8x3072_S1024x3072_1_0_0_1_n_n.rhsIdx i q 1).val = (i 1).val := by
  unfold DotDims.rhsIdx
  rw [dif_neg (show ¬(1 : Fin S8x3072.rank) ∈ dot_S1024x8_S8x3072_S1024x3072_1_0_0_1_n_n.rhsBatch by decide), dif_pos (show (1 : Fin S8x3072.rank) ∈ dot_S1024x8_S8x3072_S1024x3072_1_0_0_1_n_n.rhsNonContracting by decide)]
  rfl

/-- Into the zero accumulator, entry (p, f) of the first product is the sum over the eight channels. -/
theorem mm1_apply (l : FVec Ideal S1024x8 .bf16) (r : FVec Ideal S8x3072 .bf16) (p : Fin 1024) (c : Fin 3072) :
    matmul (F := Ideal) dot_S1024x8_S8x3072_S1024x3072_1_0_0_1_n_n none l r (constant (F := Ideal) S1024x3072 .f32 0x00000000#32) (ix2 p c)
      = ∑ k : Fin 8, l (ix2 p k) * r (ix2 k c) := by
  simp only [matmul]
  rw [Ideal.matmul_constant_zero_apply, ← Equiv.sum_comp (contrEquiv1 dot_S1024x8_S8x3072_S1024x3072_1_0_0_1_n_n 8 rfl rfl).symm]
  refine Finset.sum_congr rfl fun k _ => ?_
  have hk := contrEquiv1_symm_val dot_S1024x8_S8x3072_S1024x3072_1_0_0_1_n_n 8 rfl rfl k
  have el : dot_S1024x8_S8x3072_S1024x3072_1_0_0_1_n_n.lhsIdx (ix2 p c) ((contrEquiv1 dot_S1024x8_S8x3072_S1024x3072_1_0_0_1_n_n 8 rfl rfl).symm k) = ix2 p k := funext fun a => Fin.ext (by
    match a with
    | ⟨0, _⟩ => exact lhs_mm1_0 _ _
    | ⟨1, _⟩ => exact (lhs_mm1_1 _ _).trans hk)
  have er : dot_S1024x8_S8x3072_S1024x3072_1_0_0_1_n_n.rhsIdx (ix2 p c) ((contrEquiv1 dot_S1024x8_S8x3072_S1024x3072_1_0_0_1_n_n 8 rfl rfl).symm k) = ix2 k c := funext fun a => Fin.ext (by
    match a with
    | ⟨0, _⟩ => exact (rhs_mm1_0 _ _).trans hk
    | ⟨1, _⟩ => exact rhs_mm1_1 _ _)
  rw [el, er]

/-! ## The second product, [1024, 3072] × [3072, 768]: the same reading, the hidden axis contracted -/

theorem lhs_mm2_0 (i : S1024x768.Idx) (q : dot_S1024x3072_S3072x768_S1024x768_1_0_0_1_n_n.contr.Idx) :
    (dot_S1024x3072_S3072x768_S1024x768_1_0_0_1_n_n.lhsIdx i q 0).val = (i 0).val := by
  unfold DotDims.lhsIdx
  rw [dif_neg (show ¬(0 : Fin S1024x3072.rank) ∈ dot_S1024x3072_S3072x768_S1024x768_1_0_0_1_n_n.lhsBatch by decide), dif_pos (show (0 : Fin S1024x3072.rank) ∈ dot_S1024x3072_S3072x768_S1024x768_1_0_0_1_n_n.lhsNonContracting by decide)]
  rfl
theorem lhs_mm2_1 (i : S1024x768.Idx) (q : dot_S1024x3072_S3072x768_S1024x768_1_0_0_1_n_n.contr.Idx) :
    (dot_S1024x3072_S3072x768_S1024x768_1_0_0_1_n_n.lhsIdx i q 1).val = (q ⟨0, by decide⟩).val :=
  dot_S1024x3072_S3072x768_S1024x768_1_0_0_1_n_n.lhsIdx_val_of_single rfl i q
theorem rhs_mm2_0 (i : S1024x768.Idx) (q : dot_S1024x3072_S3072x768_S1024x768_1_0_0_1_n_n.contr.Idx) :
    (dot_S1024x3072_S3072x768_S1024x768_1_0_0_1_n_n.rhsIdx i q 0).val = (q ⟨0, by decide⟩).val :=
  dot_S1024x3072_S3072x768_S1024x768_1_0_0_1_n_n.rhsIdx_val_of_single rfl i q
theorem rhs_mm2_1 (i : S1024x768.Idx) (q : dot_S1024x3072_S3072x768_S1024x768_1_0_0_1_n_n.contr.Idx) :
    (dot_S1024x3072_S3072x768_S1024x768_1_0_0_1_n_n.rhsIdx i q 1).val = (i 1).val := by
  unfold DotDims.rhsIdx
  rw [dif_neg (show ¬(1 : Fin S3072x768.rank) ∈ dot_S1024x3072_S3072x768_S1024x768_1_0_0_1_n_n.rhsBatch by decide), dif_pos (show (1 : Fin S3072x768.rank) ∈ dot_S1024x3072_S3072x768_S1024x768_1_0_0_1_n_n.rhsNonContracting by decide)]
  rfl

/-- Into the zero accumulator, entry (p, e) of the second product is the sum over the 3072 hidden units. -/
theorem mm2_apply (l : FVec Ideal S1024x3072 .bf16) (r : FVec Ideal S3072x768 .bf16) (p : Fin 1024) (c : Fin 768) :
    matmul (F := Ideal) dot_S1024x3072_S3072x768_S1024x768_1_0_0_1_n_n none l r (constant (F := Ideal) S1024x768 .f32 0x00000000#32) (ix2 p c)
      = ∑ k : Fin 3072, l (ix2 p k) * r (ix2 k c) := by
  simp only [matmul]
  rw [Ideal.matmul_constant_zero_apply, ← Equiv.sum_comp (contrEquiv1 dot_S1024x3072_S3072x768_S1024x768_1_0_0_1_n_n 3072 rfl rfl).symm]
  refine Finset.sum_congr rfl fun k _ => ?_
  have hk := contrEquiv1_symm_val dot_S1024x3072_S3072x768_S1024x768_1_0_0_1_n_n 3072 rfl rfl k
  have el : dot_S1024x3072_S3072x768_S1024x768_1_0_0_1_n_n.lhsIdx (ix2 p c) ((contrEquiv1 dot_S1024x3072_S3072x768_S1024x768_1_0_0_1_n_n 3072 rfl rfl).symm k) = ix2 p k := funext fun a => Fin.ext (by
    match a with
    | ⟨0, _⟩ => exact lhs_mm2_0 _ _
    | ⟨1, _⟩ => exact (lhs_mm2_1 _ _).trans hk)
  have er : dot_S1024x3072_S3072x768_S1024x768_1_0_0_1_n_n.rhsIdx (ix2 p c) ((contrEquiv1 dot_S1024x3072_S3072x768_S1024x768_1_0_0_1_n_n 3072 rfl rfl).symm k) = ix2 k c := funext fun a => Fin.ext (by
    match a with
    | ⟨0, _⟩ => exact (rhs_mm2_0 _ _).trans hk
    | ⟨1, _⟩ => exact rhs_mm2_1 _ _)
  rw [el, er]

/-! ## The stored tile at an entry -/

/-- Entry (p, e) of the stored tile is output channel `e` of the token in the tile's row `p`, the weights read
    through their transposed copies: the outer sum is the second product, its summand's left factor the rectified
    first product plus the first bias, and each bias row and the angle row are read at their one row. -/
theorem pay_apply (v0 : Vec Ideal S1024x8 .f32) (v2 : Vec Ideal S8 .f32) (v9 : Vec Ideal S8x3072 .bf16) (v12 : Vec Ideal S3072 .f32)
    (v19 : Vec Ideal S3072x768 .bf16) (v22 : Vec Ideal S768 .f32) (p : Fin 1024) (e : Fin 768) :
    k0_pay1 (F := Ideal) v0 v2 v9 v12 v19 v22 (ix2 p e)
      = Cert.Ffn.token (fun q => v0 (ix2 p q)) (fun q => v2 (ix1 q)) (fun f q => v9 (ix2 q f)) (fun f => v12 (ix1 f))
          (fun e f => v19 (ix2 f e)) (fun e => v22 (ix1 e)) e := by
  unfold k0_pay1 Cert.Ffn.token Cert.Ffn.hidden
  dsimp only
  rw [addf_apply, mm2_apply, broadcastTo_1b_ab_apply, shapeCast_a_1a_apply]
  refine congrArg (· + v22 (ix1 e)) (Finset.sum_congr rfl fun f _ => ?_)
  rw [truncf_apply, maximumf_apply, addf_apply, mm1_apply, broadcast_apply, broadcastTo_1b_ab_apply, shapeCast_a_1a_apply]
  simp only [shapeCast_self]
  refine congrArg₂ (· * ·) (congrArg₂ max (congrArg (· + v12 (ix1 f)) (Finset.sum_congr rfl fun q _ => ?_)) rfl) rfl
  rw [truncf_apply, mulf_apply, broadcastTo_1b_ab_apply, shapeCast_a_1a_apply]
  rfl

end Cert.KernelIdeal.Payload

end
-- ==== Proof.KernelBlocks.lean ====
/-
  From tiles to the kernel's whole output array.

  The grid has sixteen points.  Point `t` is handed rows [1024 t, 1024 t + 1024) of the token array
  (window 0) and all of θ, both transposed weights and both biases (windows 1 to 5, one block each),
  and writes rows [1024 t, 1024 t + 1024) of the [16384, 768] output (window 6).  The stored tile at
  entry (p, e) is the token in row 1024 t + p, channel e (the payload read at an entry), so what
  point `t` writes back is block `t` of ONE function of the six arrays, the layer on the flattened
  token axis; the sixteen row blocks tile the output, so after the region the array IS that function.
-/
import proofs.«180134_j65481071398675_1_alg».proof.Proof.Gen.KernelIdeal.Frame
import proofs.«180134_j65481071398675_1_alg».proof.Proof.KernelPayload
import proofs.«180134_j65481071398675_1_alg».proof.Proof.FfnSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The layer on the flattened token axis, of the six arrays as the kernel's region finds them. -/
abbrev flat (c : Dev nD) : FVec Ideal S16384x768 .f32 :=
  Cert.Ffn.ffnFlat (V m c main_v1) (V m c main_arg1) (V m c main_v3) (V m c main_arg3) (V m c main_v5) (V m c main_arg5)

/-- The printed index maps over the sixteen grid points: the token windows (input 0, output 6) sit at block row `t`,
    every other window at its one block. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- One stored tile at an entry, for any six loaded blocks that read the six arrays where the tile's position
    says: the token block at rows `r p`, the others entry for entry. -/
theorem tile_apply (xin : FVec Ideal S16384x8 .f32) (θ : FVec Ideal S8 .f32) (w1t : FVec Ideal S8x3072 .bf16)
    (b1 : FVec Ideal S3072 .f32) (w2t : FVec Ideal S3072x768 .bf16) (b2 : FVec Ideal S768 .f32)
    (x0 : Vec Ideal S1024x8 .f32) (x1 : Vec Ideal S8 .f32) (x2 : Vec Ideal S8x3072 .bf16) (x3 : Vec Ideal S3072 .f32)
    (x4 : Vec Ideal S3072x768 .bf16) (x5 : Vec Ideal S768 .f32) (r : Fin 1024 → Fin 16384)
    (h0 : ∀ p q, x0 (ix2 p q) = xin (ix2 (r p) q)) (h1 : ∀ q, x1 (ix1 q) = θ (ix1 q))
    (h2 : ∀ q f, x2 (ix2 q f) = w1t (ix2 q f)) (h3 : ∀ f, x3 (ix1 f) = b1 (ix1 f))
    (h4 : ∀ f e, x4 (ix2 f e) = w2t (ix2 f e)) (h5 : ∀ e, x5 (ix1 e) = b2 (ix1 e)) (j : S1024x768.Idx) :
    k0_pay1 (F := Ideal) x0 x1 x2 x3 x4 x5 j = Cert.Ffn.ffnFlat xin θ w1t b1 w2t b2 (ix2 (r (j 0)) (j 1)) := by
  obtain ⟨p, e, rfl⟩ : ∃ (p : Fin 1024) (e : Fin 768), j = ix2 p e := ⟨j 0, j 1, eq_ix2 j⟩
  show k0_pay1 (F := Ideal) x0 x1 x2 x3 x4 x5 (ix2 p e) = Cert.Ffn.ffnFlat xin θ w1t b1 w2t b2 (ix2 (r p) e)
  rw [Payload.pay_apply]
  unfold Cert.Ffn.ffnFlat
  simp only [h0, h1, h2, h3, h4, h5]

/-- WHAT POINT `t` WRITES BACK is block `t` of the layer on the flattened token axis. -/
theorem flushed_eq (c : Dev nD) (t : Fin cfg0.N) :
    (dats m 0 c).flushed 6 t = ((cfg0.win 6).blk t).view.read (Elt Ideal) (flat m c) := by
  show (cfg0.win 6).cut (grid0.coords t) ((dats m 0 c).after 6 t) = _
  rw [after0_6]
  unfold out0_6
  rw [View.canon_unit_zero hz2]
  simp only [View.ld_unit_zero (S := S1024x8) hz2, View.ld_unit_zero (S := S8) hz1, View.ld_unit_zero (S := S8x3072) hz2,
    View.ld_unit_zero (S := S3072) hz1, View.ld_unit_zero (S := S3072x768) hz2, View.ld_unit_zero (S := S768) hz1]
  obtain ⟨e00, e01, e10, e20, e21, e30, e40, e41, e50, e60, e61⟩ := idx_facts t
  have ht : t.val < 16 := t.isLt
  funext j
  show k0_pay1 (F := Ideal) (iblk m c 0 t) (iblk m c 1 t) (iblk m c 2 t) (iblk m c 3 t) (iblk m c 4 t) (iblk m c 5 t) j
    = flat m c (((cfg0.win 6).blk t).view.emb j)
  refine (tile_apply (V m c main_v1) (V m c main_arg1) (V m c main_v3) (V m c main_arg3) (V m c main_v5) (V m c main_arg5)
    (iblk m c 0 t) (iblk m c 1 t) (iblk m c 2 t) (iblk m c 3 t) (iblk m c 4 t) (iblk m c 5 t)
    (fun p => ⟨t.val * 1024 + p.val, by have := p.isLt; omega⟩) ?_ ?_ ?_ ?_ ?_ ?_ j).trans ?_
  · intro p q
    show V m c main_v1 (((cfg0.win 0).blk t).view.emb (ix2 p q)) = _
    refine congrArg (V m c main_v1) (funext fun a => Fin.ext ?_)
    match a with
    | ⟨0, _⟩ => show win0_0.index t (0 : Fin 2) * 1024 + 1 * p.val = t.val * 1024 + p.val; omega
    | ⟨1, _⟩ => show win0_0.index t (1 : Fin 2) * 8 + 1 * q.val = q.val; omega
  · intro q
    show V m c main_arg1 (((cfg0.win 1).blk t).view.emb (ix1 q)) = _
    refine congrArg (V m c main_arg1) (funext fun a => Fin.ext ?_)
    match a with
    | ⟨0, _⟩ => show win0_1.index t (0 : Fin 1) * 8 + 1 * q.val = q.val; omega
  · intro q f
    show V m c main_v3 (((cfg0.win 2).blk t).view.emb (ix2 q f)) = _
    refine congrArg (V m c main_v3) (funext fun a => Fin.ext ?_)
    match a with
    | ⟨0, _⟩ => show win0_2.index t (0 : Fin 2) * 8 + 1 * q.val = q.val; omega
    | ⟨1, _⟩ => show win0_2.index t (1 : Fin 2) * 3072 + 1 * f.val = f.val; omega
  · intro f
    show V m c main_arg3 (((cfg0.win 3).blk t).view.emb (ix1 f)) = _
    refine congrArg (V m c main_arg3) (funext fun a => Fin.ext ?_)
    match a with
    | ⟨0, _⟩ => show win0_3.index t (0 : Fin 1) * 3072 + 1 * f.val = f.val; omega
  · intro f e
    show V m c main_v5 (((cfg0.win 4).blk t).view.emb (ix2 f e)) = _
    refine congrArg (V m c main_v5) (funext fun a => Fin.ext ?_)
    match a with
    | ⟨0, _⟩ => show win0_4.index t (0 : Fin 2) * 3072 + 1 * f.val = f.val; omega
    | ⟨1, _⟩ => show win0_4.index t (1 : Fin 2) * 768 + 1 * e.val = e.val; omega
  · intro e
    show V m c main_arg5 (((cfg0.win 5).blk t).view.emb (ix1 e)) = _
    refine congrArg (V m c main_arg5) (funext fun a => Fin.ext ?_)
    match a with
    | ⟨0, _⟩ => show win0_5.index t (0 : Fin 1) * 768 + 1 * e.val = e.val; omega
  · refine congrArg (flat m c) (funext fun a => Fin.ext ?_)
    match a with
    | ⟨0, _⟩ => show t.val * 1024 + (j 0).val = win0_6.index t (0 : Fin 2) * 1024 + 1 * (j 0).val; omega
    | ⟨1, _⟩ => show (j 1).val = win0_6.index t (1 : Fin 2) * 768 + 1 * (j 1).val; omega

/-- An index of the output array is in point `t`'s block iff each coordinate is in the block's range on its axis. -/
theorem mem_blk (t : Fin cfg0.N) (i : S16384x768.Idx) :
    i ∈ ((cfg0.win 6).blk t).view.set ↔ ∀ a : Fin 2, win0_6.index t a * S1024x768.size a ≤ (i a).val ∧ (i a).val < win0_6.index t a * S1024x768.size a + S1024x768.size a := by
  show i ∈ ((View.whole main_v6).slice (win0_6.rect t)).set ↔ _
  rw [View.set_slice_whole, Rect.mem_set_unit]
  exact Iff.rfl

/-- The sixteen row blocks tile the output array: row `r` lies in block `r / 1024`. -/
theorem cover (i : S16384x768.Idx) : ∃ t : Fin cfg0.N, (cfg0.win 6).flush t = true ∧ i ∈ ((cfg0.win 6).blk t).view.set := by
  have hi0 : (i 0).val < 16384 := (i 0).isLt
  have hi1 : (i 1).val < 768 := (i 1).isLt
  have hlt : (i 0).val / 1024 < 16 := by omega
  obtain ⟨-, -, -, -, -, -, -, -, -, e60, e61⟩ := idx_facts ⟨(i 0).val / 1024, hlt⟩
  refine ⟨⟨(i 0).val / 1024, hlt⟩, flush0_6 _, ?_⟩
  rw [mem_blk]
  intro a
  match a with
  | ⟨0, _⟩ =>
    show win0_6.index ⟨(i 0).val / 1024, hlt⟩ (0 : Fin 2) * 1024 ≤ (i 0).val ∧ (i 0).val < win0_6.index ⟨(i 0).val / 1024, hlt⟩ (0 : Fin 2) * 1024 + 1024
    rw [e60]; show (i 0).val / 1024 * 1024 ≤ (i 0).val ∧ (i 0).val < (i 0).val / 1024 * 1024 + 1024; omega
  | ⟨1, _⟩ =>
    show win0_6.index ⟨(i 0).val / 1024, hlt⟩ (1 : Fin 2) * 768 ≤ (i 1).val ∧ (i 1).val < win0_6.index ⟨(i 0).val / 1024, hlt⟩ (1 : Fin 2) * 768 + 768
    omega

/-- THE OUTPUT ARRAY after the region: the layer on the flattened token axis. -/
theorem final (c : Dev nD) : (dats m 0 c).arrAt 6 cfg0.N = flat m c :=
  (dats m 0 c).arrAt_eq_of_cover 6 (flat m c) (fun t _ => flushed_eq m c t) cover

end Cert.KernelIdeal.Blocks

end
-- ==== Proof.KernelRun.lean ====
/-
  The kernel program's run, read.

  Before the region the host lines cut the first eight channels out of `x` and flatten its two token
  axes, (b, s) ↦ 2048 b + s, and transpose both weight matrices; after it one line splits the token
  axis of the [16384, 768] output back into [8, 2048].  Read at an index these are: token row
  2048 b + s holds x[b, s, 0..8); the transposed weights at (q, f) and (f, e) are w1[f, q] and
  w2[e, f]; the result at (b, s, e) is the output array at (2048 b + s, e).  With the output array
  the layer on the flattened token axis, the result buffer is the layer on the arguments as launched.
-/
import proofs.«180134_j65481071398675_1_alg».proof.Proof.KernelBlocks

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)
/-! ## The arrays the host lines before the region hand the kernel -/

/-- The token array is the first eight channels of `x` with the two token axes flattened row-major. -/
theorem V_v1 (c : Dev nD) : (V m c main_v1 : FVec Ideal S16384x8 .f32)
    = shapeCast S16384x8 (extractStridedSlice S8x2048x8 ![0, 0, 0] (m ((c : Thread nD τ).loc main_arg0)) slices_S8x2048x768_S8x2048x8_0_0_0) shapeCasts_S8x2048x8_S16384x8 := by
  show StableHlo.after hostOps0 (fun b => m (c, b)) (Proc.devRef .tc main_v1) = _
  after_results
  rfl

/-- The first weight matrix reaches the kernel transposed (and narrowed, which changes nothing here). -/
theorem V_v3 (c : Dev nD) : (V m c main_v3 : FVec Ideal S8x3072 .bf16)
    = truncf (F := Ideal) .bf16 (transpose S8x3072 [1, 0] (m ((c : Thread nD τ).loc main_arg2)) transposes_S3072x8_S8x3072_1_0) bitsLt_bf16_f32 := by
  show StableHlo.after hostOps0 (fun b => m (c, b)) (Proc.devRef .tc main_v3) = _
  after_results

/-- So does the second. -/
theorem V_v5 (c : Dev nD) : (V m c main_v5 : FVec Ideal S3072x768 .bf16)
    = truncf (F := Ideal) .bf16 (transpose S3072x768 [1, 0] (m ((c : Thread nD τ).loc main_arg4)) transposes_S768x3072_S3072x768_1_0) bitsLt_bf16_f32 := by
  show StableHlo.after hostOps0 (fun b => m (c, b)) (Proc.devRef .tc main_v5) = _
  after_results

/-- Row `b · 2048 + s` of the token array holds the first eight channels of token (b, s). -/
theorem V_v1_apply (c : Dev nD) (b : Fin 8) (s : Fin 2048) (q : Fin 8) (h : b.val * 2048 + s.val < 16384) :
    V m c main_v1 (ix2 ⟨b.val * 2048 + s.val, h⟩ q) = m ((c : Thread nD τ).loc main_arg0) (ix3 b s (Cert.Ffn.chan q)) := by
  rw [V_v1, shapeCast_apply _ _ _ (ix3 b s q) (by rw [Shape.rowMajor_val_three, Shape.rowMajor_val_two]; rfl)]
  exact extractStridedSlice_apply ![0, 0, 0] _ _ (ix3 b s q) (ix3 b s (Cert.Ffn.chan q)) (fun a => match a with
    | ⟨0, _⟩ => by show b.val = 0 + b.val; omega
    | ⟨1, _⟩ => by show s.val = 0 + s.val; omega
    | ⟨2, _⟩ => by show q.val = 0 + q.val; omega)

theorem V_v3_apply (c : Dev nD) (q : Fin 8) (f : Fin 3072) :
    V m c main_v3 (ix2 q f) = m ((c : Thread nD τ).loc main_arg2) (ix2 f q) := by
  rw [V_v3, truncf_apply]
  exact transpose_ix2_apply _ _ q f

theorem V_v5_apply (c : Dev nD) (f : Fin 3072) (e : Fin 768) :
    V m c main_v5 (ix2 f e) = m ((c : Thread nD τ).loc main_arg4) (ix2 e f) := by
  rw [V_v5, truncf_apply]
  exact transpose_ix2_apply _ _ f e

/-! ## The host line after the region, and the run -/

/-- The result buffer: the output array with its token axis split back into (b, s), which is the layer on
    the arguments as launched. -/
theorem tail_eq (c : Dev nD) : (Pipeline.afterTail₀ cfgs (dats m) 0 (V0 m) [hostOps1] c main_v7 : FVec Ideal S8x2048x768 .f32)
    = Cert.Ffn.ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Pipeline.afterTail₀
  show StableHlo.after hostOps1 _ (Proc.devRef .tc main_v7) = _
  after_results
  have hw := (Pipeline.withArrays_arr spec0 launch0.win.arr_inj c (V0 m c) (fun w => (dats m 0 c).arrAt w cfg0.N) 6).trans (final m c)
  funext i
  obtain ⟨b, s, e, rfl⟩ : ∃ (b : Fin 8) (s : Fin 2048) (e : Fin 768), i = ix3 b s e := ⟨i 0, i 1, i 2, eq_ix3 i⟩
  have hb := b.isLt
  have hs := s.isLt
  show shapeCast S8x2048x768 (Pipeline.withArrays spec0 c (V0 m c) (fun w => (dats m 0 c).arrAt w cfg0.N) (Proc.devRef .tc main_v6))
    shapeCasts_S16384x768_S8x2048x768 (ix3 b s e) = _
  rw [shapeCast_apply _ _ (ix3 b s e) (ix2 ⟨b.val * 2048 + s.val, by omega⟩ e) (by rw [Shape.rowMajor_val_two, Shape.rowMajor_val_three]; rfl)]
  refine (congrFun hw _).trans ?_
  show Cert.Ffn.token (fun q => V m c main_v1 (ix2 ⟨b.val * 2048 + s.val, by omega⟩ q)) (fun q => V m c main_arg1 (ix1 q))
      (fun f q => V m c main_v3 (ix2 q f)) (fun f => V m c main_arg3 (ix1 f)) (fun e f => V m c main_v5 (ix2 f e))
      (fun e => V m c main_arg5 (ix1 e)) e
    = Cert.Ffn.token (fun q => m ((c : Thread nD τ).loc main_arg0) (ix3 b s (Cert.Ffn.chan q))) (fun q => m ((c : Thread nD τ).loc main_arg1) (ix1 q))
      (fun f q => m ((c : Thread nD τ).loc main_arg2) (ix2 f q)) (fun f => m ((c : Thread nD τ).loc main_arg3) (ix1 f))
      (fun e f => m ((c : Thread nD τ).loc main_arg4) (ix2 e f)) (fun e => m ((c : Thread nD τ).loc main_arg5) (ix1 e)) e
  exact congrFun (congr (congr (congr (congr (congr (congrArg Cert.Ffn.token
      (funext fun q => V_v1_apply m c b s q _))
      (funext fun q => congrFun (V_main_arg1 m c) (ix1 q)))
      (funext fun f => funext fun q => V_v3_apply m c q f))
      (funext fun f => congrFun (V_main_arg3 m c) (ix1 f)))
      (funext fun e => funext fun f => V_v5_apply m c f e))
      (funext fun e => congrFun (V_main_arg5 m c) (ix1 e))) e

/-- The kernel program's run, read: every weakly fair execution terminates with the result buffer at the layer of
    the arguments as launched, the arguments unchanged. -/
theorem run : θ_run defs (onTc (τ := τ) (main (F := Ideal))) ⟨m, fun _ => 0, ρ⟩ (fun r => ∀ c : Dev nD,
      r.2.mem ((c.tc : Thread nD τ).loc main_v7) = Cert.Ffn.ffn (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c)))⟩)
    (run_main m ρ)

end Cert.KernelIdeal.Blocks

end
-- ==== Proof.RefIsFfn.lean ====
/-
  The reference's result is the specification.

  The reference slices the first eight channels of `x`, takes cosines of them and of θ, multiplies
  (θ's row broadcast over all tokens), contracts the channel axis against `w1`'s second axis, adds
  `b1` broadcast over tokens, rectifies, contracts the hidden axis against `w2`'s second axis and adds
  `b2`.  Read at an index (b, s, e), stage by stage, that is exactly `ffn` there: the only work is to
  identify each stage's composed index function with the coordinates it denotes.
-/
import proofs.«180134_j65481071398675_1_alg».proof.Proof.Gen.ReferenceIdeal.Read
import proofs.«180134_j65481071398675_1_alg».proof.Proof.FfnSpec

noncomputable section

namespace Cert.ReferenceIdeal.RefValue

open Cert.ReferenceIdeal Cert.ReferenceIdeal.Gen Cert.ReferenceIdeal.Read Idealize.ShloMosaic Idealize.ShloMosaic.ValueIdx

/-- The reference's last stage, as a function of the six arguments, is the layer. -/
theorem ref_is_ffn (x0 : FVec Ideal S8x2048x768 .f32) (x1 : FVec Ideal S8 .f32) (x2 : FVec Ideal S3072x8 .f32)
    (x3 : FVec Ideal S3072 .f32) (x4 : FVec Ideal S768x3072 .f32) (x5 : FVec Ideal S768 .f32) :
    val_main_v14 (F := Ideal) x0 x1 x2 x3 x4 x5 = Cert.Ffn.ffn x0 x1 x2 x3 x4 x5 := by
  funext i
  unfold Cert.Ffn.ffn Cert.Ffn.token Cert.Ffn.hidden
  -- the second bias is read at the output channel
  have e5 : idx_main_v12 (idx_main_v13 i) = ix1 (i 2) := funext fun a => Fin.ext (by match a with | ⟨0, _⟩ => rfl)
  rw [val_main_v14_apply, val_main_v11_apply, val_main_v13_apply, val_main_v12_apply, e5]
  refine congrArg (· + x5 (ix1 (i 2))) (Finset.sum_congr rfl fun f _ => ?_)
  -- hidden unit f: the second weight at (e, f), the first bias at f
  have e4 : ridx_main_v11 i f = ix2 (i 2) f := funext fun a => Fin.ext (by match a with | ⟨0, _⟩ => rfl | ⟨1, _⟩ => rfl)
  have e3 : idx_main_v7 (idx_main_v8 (lidx_main_v11 i f)) = ix1 f := funext fun a => Fin.ext (by match a with | ⟨0, _⟩ => rfl)
  rw [e4, val_main_v10_apply, val_main_v9_apply, val_main_v6_apply, val_main_v8_apply, val_main_v7_apply, e3,
    val_main_call0_v0_apply, val_main_call0_cst_apply]
  refine congrArg₂ (· * ·) (congrArg₂ max (congrArg (· + x3 (ix1 f)) (Finset.sum_congr rfl fun q _ => ?_)) rfl) rfl
  -- channel q of token (b, s): x at (b, s, q), θ at q, the first weight at (f, q)
  have e0 : idx_main_v0 (lidx_main_v6 (lidx_main_v11 i f) q) = ix3 (i 0) (i 1) (Cert.Ffn.chan q) :=
    funext fun a => Fin.ext (by match a with | ⟨0, _⟩ => rfl | ⟨1, _⟩ => rfl | ⟨2, _⟩ => rfl)
  have e1 : idx_main_v3 (idx_main_v4 (lidx_main_v6 (lidx_main_v11 i f) q)) = ix1 q :=
    funext fun a => Fin.ext (by match a with | ⟨0, _⟩ => rfl)
  have e2 : ridx_main_v6 (lidx_main_v11 i f) q = ix2 f q :=
    funext fun a => Fin.ext (by match a with | ⟨0, _⟩ => rfl | ⟨1, _⟩ => rfl)
  rw [e2, val_main_v5_apply, val_main_v1_apply, val_main_v0_apply, e0, val_main_v4_apply, val_main_v3_apply, val_main_v2_apply, e1]
  rfl

end Cert.ReferenceIdeal.RefValue

end
-- ==== Proof.lean ====
/-
  The certificate: a feed-forward layer on eight cosine features, tiled over tokens, against its
  plain reference.

  Both programs compute, for every token (b, s) and output channel e,
      Σ_f max (Σ_q cos x[b,s,q] · cos θ[q] · w1[f,q] + b1[f]) 0 · w2[e,f] + b2[e]     (q < 8, f < 3072).
  The kernel does it on sixteen tiles of 1024 tokens with the weights transposed and narrowed on the
  host; on the extended reals narrowing is the identity and both matrix products are plain finite
  sums, so the two results are the same function of the arguments (`Cert.Ffn.ffn`) term for term:
  no law beyond reading both sides at an index is needed, and the precondition is not used.

  The three frames: the kernel programs' are the generated frame certificates; the reference has
  no kernel, and its frame is its run with the result dropped.  The idealization rewrote nothing,
  so `preserves` has no conjunct.
-/
import proofs.«180134_j65481071398675_1_alg».proof.Defs
import proofs.«180134_j65481071398675_1_alg».proof.Proof.Gen.Kernel
import proofs.«180134_j65481071398675_1_alg».proof.Proof.Gen.Kernel.Skeleton
import proofs.«180134_j65481071398675_1_alg».proof.Proof.Gen.Kernel.Launch
import proofs.«180134_j65481071398675_1_alg».proof.Proof.Gen.Kernel.Points
import proofs.«180134_j65481071398675_1_alg».proof.Proof.Gen.Kernel.Frame
import proofs.«180134_j65481071398675_1_alg».proof.Proof.Gen.KernelIdeal
import proofs.«180134_j65481071398675_1_alg».proof.Proof.Gen.KernelIdeal.Skeleton
import proofs.«180134_j65481071398675_1_alg».proof.Proof.Gen.KernelIdeal.Launch
import proofs.«180134_j65481071398675_1_alg».proof.Proof.Gen.KernelIdeal.Points
import proofs.«180134_j65481071398675_1_alg».proof.Proof.Gen.KernelIdeal.Frame
import proofs.«180134_j65481071398675_1_alg».proof.Proof.Gen.ReferenceIdeal
import proofs.«180134_j65481071398675_1_alg».proof.Proof.Gen.Pre_finite_inputs
import proofs.«180134_j65481071398675_1_alg».proof.Proof.Gen.ReferenceIdeal.Run
import proofs.«180134_j65481071398675_1_alg».proof.Proof.Gen.ReferenceIdeal.Read
import proofs.«180134_j65481071398675_1_alg».proof.Proof.KernelRun
import proofs.«180134_j65481071398675_1_alg».proof.Proof.RefIsFfn
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the layer of their own arguments; the arguments agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_is_ffn,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
